-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S50000x256 .f32) (main_arg1 : IVec S800000 32) (main_arg2 : IVec S800000 32) (main_arg3 : FVec F S800000 .f32) (main_arg4 : FVec F S256x256 .f32) (main_arg5 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩
abbrev S5000x256 : Shape := ⟨2, ![5000, 256]⟩

abbrev nBuf : Space → Nat
  | .hbm => 25
  | .vmem => 6
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x256, .f32⟩
  | .hbm, ⟨5, _⟩ => ⟨S256, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x256, .f32⟩
  | .hbm, ⟨16, _⟩ => ⟨S800000x256, .f32⟩
  | .hbm, ⟨17, _⟩ => ⟨S800000x256, .f32⟩
  | .hbm, ⟨18, _⟩ => ⟨S_, .f32⟩
  | .hbm, ⟨19, _⟩ => ⟨S50000x256, .f32⟩
  | .hbm, ⟨20, _⟩ => ⟨S800000x1, .i32⟩
  | .hbm, ⟨21, _⟩ => ⟨S50000x256, .f32⟩
  | .hbm, ⟨22, _⟩ => ⟨S256x256, .f32⟩
  | .hbm, ⟨23, _⟩ => ⟨S1x256, .f32⟩
  | .hbm, ⟨24, _⟩ => ⟨S50000x256, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  transposes_S256x256_S256x256_1_0 : S256x256.Transposes [1, 0] S256x256
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_v12) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩

abbrev nBuf : Space → Nat
  | .hbm => 26
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x256, .f32⟩
  | .hbm, ⟨5, _⟩ => ⟨S256, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x256, .f32⟩
  | .hbm, ⟨16, _⟩ => ⟨S800000x256, .f32⟩
  | .hbm, ⟨17, _⟩ => ⟨S800000x256, .f32⟩
  | .hbm, ⟨18, _⟩ => ⟨S_, .f32⟩
  | .hbm, ⟨19, _⟩ => ⟨S50000x256, .f32⟩
  | .hbm, ⟨20, _⟩ => ⟨S800000x1, .i32⟩
  | .hbm, ⟨21, _⟩ => ⟨S50000x256, .f32⟩
  | .hbm, ⟨22, _⟩ => ⟨S50000x256, .f32⟩
  | .hbm, ⟨23, _⟩ => ⟨S1x256, .f32⟩
  | .hbm, ⟨24, _⟩ => ⟨S50000x256, .f32⟩
  | .hbm, ⟨25, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_1_0_0_n_n_wf : DotDims.WF S50000x256 S256x256 S50000x256 [1] [1] [0] [0] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_1_0_0_n_n : DotDims S50000x256 S256x256 S50000x256 where
  lhsContracting := [1]
  rhsContracting := [1]
  lhsNonContracting := [0]
  rhsNonContracting := [0]
  lhsBatch := []
  rhsBatch := []
  wf := dot_S50000x256_S256x256_S50000x256_1_1_0_0_n_n_wf

class Facts : Prop extends Facts₀ where

variable [Facts]
-- ==== Proof.HostArrays.lean ====
/-
  What the region finds in the three arrays it stages.

  Before the one kernel region the host operations write the aggregate (the scatter-add of the scaled gathered rows),
  the transpose of the weights, and the bias laid out as one row [1, 256]. The aggregate is named as one function of the
  four arguments it reads and carried whole; the other two are read at an index: entry (k, o) of the transposed
  weights is W[o, k], and entry (0, o) of the bias row is b[o].
-/
import proofs.«123049_j74861279969816_1_alg».proof.Proof.Gen.KernelIdeal.Frame
import Idealize.ShloMosaic.Lib.Pipeline.Value
import Idealize.ShloMosaic.Lib.ValueIdx
import Idealize.ShloMosaic.Lib.StableHlo.Run

set_option Elab.async false

noncomputable section

namespace Cert.KernelIdeal.Whole

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## What the host operations leave in the three staged arrays -/

/-- The aggregate as a function of the node features, the edge rows and columns and the edge values: negative
    column indices wrapped by the node count, the selected feature rows gathered, each scaled by its edge value, and the
    scaled rows added into a zero array at their edge rows. It is carried whole; nothing below opens it. -/
def aggregate (x : FVec Ideal S50000x256 .f32) (row col : (⟨S800000, .i32⟩ : BufTy).Contents (Elt Ideal)) (val : FVec Ideal S800000 .f32) :
    FVec Ideal S50000x256 .f32 :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 row)
    (mulf
      (broadcastInDim S800000x256 ![0, 1] bcast_S800000x1_S800000x256_0_1 (broadcastInDim S800000x1 ![0] bcast_S800000_S800000x1_0 val))
      (Host.gather gather_S50000x256_S800000x1_S800000x256_1_0_n_n_0_1_1256 x
        (broadcastInDim S800000x1 ![0] bcast_S800000_S800000x1_0
          (select (cmpi .slt col (broadcastInDim S800000 ![] bcast_S_S800000 (constantI S_ 32 0#32)))
            (addi col (broadcastInDim S800000 ![] bcast_S_S800000 (constantI S_ 32 50000#32))) col))))

/-- Window 0's array is the aggregate of the arguments. -/
theorem agg_eq (c : Dev nD) :
    (V m c main_v12 : S50000x256.Idx → EReal) = aggregate (m ((c : Thread nD τ).loc main_arg0)) (m ((c : Thread nD τ).loc main_arg1)) (m ((c : Thread nD τ).loc main_arg2)) (m ((c : Thread nD τ).loc main_arg3)) := by
  dsimp only [Gen.V, Gen.hostOps0]; after_results; rfl

/-- Window 1's array is the weights transposed. -/
theorem wt_eq (c : Dev nD) :
    (V m c main_v13 : S256x256.Idx → EReal) = transpose S256x256 [1, 0] (m ((c : Thread nD τ).loc main_arg4)) transposes_S256x256_S256x256_1_0 := by
  dsimp only [Gen.V, Gen.hostOps0]; after_results <;> rfl

/-- Entry (k, o) of the transposed weights is entry (o, k) of the weights. -/
theorem wt_at (c : Dev nD) (k o : Fin 256) :
    (V m c main_v13 : S256x256.Idx → EReal) (ix2 k o) = ((m ((c : Thread nD τ).loc main_arg4)) : S256x256.Idx → EReal) (ix2 o k) := by
  rw [wt_eq]
  exact transpose_apply [1, 0] _ transposes_S256x256_S256x256_1_0 (ix2 k o) (ix2 o k) (fun b => by
    match b with
    | ⟨0, _⟩ => rfl
    | ⟨1, _⟩ => rfl)

/-- Window 2's array is the bias laid out as one row. -/
theorem brow_eq (c : Dev nD) :
    (V m c main_v14 : S1x256.Idx → EReal) = shapeCast S1x256 (m ((c : Thread nD τ).loc main_arg5)) shapeCasts_S256_S1x256 := by
  dsimp only [Gen.V, Gen.hostOps0]; after_results; rfl

/-- Entry (0, o) of the bias row is the bias at o. -/
theorem brow_at (c : Dev nD) (o : Fin 256) :
    (V m c main_v14 : S1x256.Idx → EReal) (ix2 (0 : Fin 1) o) = ((m ((c : Thread nD τ).loc main_arg5)) : S256.Idx → EReal) (ix1 o) := by
  rw [brow_eq]
  refine (shapeCast_addUnit_apply ![256] _ shapeCasts_S256_S1x256 (ix2 (0 : Fin 1) o)).trans ?_
  refine congrArg _ (funext fun a => ?_)
  match a with
  | ⟨0, _⟩ => rfl

end Cert.KernelIdeal.Whole

end
-- ==== Proof.RowBlocks.lean ====
/-
  The row blocks of the result array.

  The grid has ten points. At point t the aggregate's window and the result's window both sit at row block t (rows
  5000·t … 5000·t + 4999, all 256 columns), while the transposed weights and the bias row stay at their one block.
  Every row block 0 … 9 is some point's, every point writes its block back, and row n lies in block n / 5000: the ten
  blocks tile the 50000 rows.
-/
import proofs.«123049_j74861279969816_1_alg».proof.Proof.Gen.KernelIdeal.Value
import Idealize.ShloMosaic.Lib.ValueIdx

set_option Elab.async false

noncomputable section

namespace Cert.KernelIdeal.Whole

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

/-! ## The windows' block indices over the grid -/

theorem hz : (![0, 0] : Fin 2 → Nat) = fun _ => 0 := funext fun a => by fin_cases a <;> rfl

/-- Decided over the ten points: the aggregate's row block moves with the result's; the weights and the bias row stay at
    block (0, 0); the result's row block index is at most 9 and its column block index 0. -/
theorem block_indices : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 9 ∧ win0_3.index t (1 : Fin 2) = 0 :=
  (by decide +kernel : ∀ t : Fin grid0.N, _)

/-- Every row block 0 … 9 is some point's. -/
theorem block_onto : ∀ q : Fin 10, ∃ t : Fin cfg0.N, win0_3.index t = ![q.val, 0] :=
  (by decide +kernel : ∀ q : Fin 10, ∃ t : Fin grid0.N, win0_3.index t = ![q.val, 0])

/-! ## The ten row blocks tile the array -/

/-- An index of the result array is in point `t`'s block iff each coordinate is in the block's range on its axis. -/
theorem mem_blk (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v15).slice (win0_3.rect t)).set ↔ _
  rw [View.set_slice_whole, Rect.mem_set_unit]
  exact Iff.rfl

/-- Row n lies in the block of the point whose row block index is n / 5000. -/
theorem cover (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ := block_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 256 ≤ (i 1).val ∧ (i 1).val < win0_3.index t (1 : Fin 2) * 256 + 256; omega

/-! ## Reading an input block, entry by entry -/

/-- Entry (r, k) of the aggregate window's block at point `t` is entry (5000·q + r, k) of the array it stages, q the
    result's row block index at `t` (the two windows move together). For an arbitrary array. -/
theorem read_rows (t : Fin cfg0.N) (A : FVec Ideal S50000x256 .f32) (r : Fin 5000) (k : Fin 256)
    (n : Fin 50000) (hn : n.val = win0_3.index t (0 : Fin 2) * 5000 + r.val) :
    ((cfg0.win 0).blk t).view.read (Elt Ideal) A (ix2 r k) = A (ix2 n k) := by
  obtain ⟨e00, e01, -, -, -, -, -, -⟩ := block_indices t
  show A (((cfg0.win 0).blk t).view.emb (ix2 r k)) = A (ix2 n k)
  refine congrArg A (funext fun a => Fin.ext ?_)
  match a with
  | ⟨0, _⟩ => show win0_0.index t (0 : Fin 2) * 5000 + 1 * r.val = n.val; omega
  | ⟨1, _⟩ => show win0_0.index t (1 : Fin 2) * 256 + 1 * k.val = k.val; omega

/-- The transposed weights' window always stages the whole array: its block's entry (k, o) is the array's. -/
theorem read_weights (t : Fin cfg0.N) (Wt : FVec Ideal S256x256 .f32) (k o : Fin 256) :
    ((cfg0.win 1).blk t).view.read (Elt Ideal) Wt (ix2 k o) = Wt (ix2 k o) := by
  obtain ⟨-, -, e10, e11, -, -, -, -⟩ := block_indices t
  show Wt (((cfg0.win 1).blk t).view.emb (ix2 k o)) = Wt (ix2 k o)
  refine congrArg Wt (funext fun a => Fin.ext ?_)
  match a with
  | ⟨0, _⟩ => show win0_1.index t (0 : Fin 2) * 256 + 1 * k.val = k.val; omega
  | ⟨1, _⟩ => show win0_1.index t (1 : Fin 2) * 256 + 1 * o.val = o.val; omega

/-- So does the bias row's: its block's entry (0, o) is the array's. -/
theorem read_bias_row (t : Fin cfg0.N) (Br : FVec Ideal S1x256 .f32) (o : Fin 256) :
    ((cfg0.win 2).blk t).view.read (Elt Ideal) Br (ix2 (0 : Fin 1) o) = Br (ix2 (0 : Fin 1) o) := by
  obtain ⟨-, -, -, -, e20, e21, -, -⟩ := block_indices t
  show Br (((cfg0.win 2).blk t).view.emb (ix2 (0 : Fin 1) o)) = Br (ix2 (0 : Fin 1) o)
  refine congrArg Br (funext fun a => Fin.ext ?_)
  match a with
  | ⟨0, _⟩ => show win0_2.index t (0 : Fin 2) * 1 + 1 * 0 = 0; omega
  | ⟨1, _⟩ => show win0_2.index t (1 : Fin 2) * 256 + 1 * o.val = o.val; omega

/-! ## A write-back, entry by entry -/

/-- Point `t` writes back, as its block of a whole array `G`, any block contents `X` whose entry (r, o) is `G`'s entry
    (5000·q + r, o), q the point's row block index: the block's array index of (r, o) is exactly that. Stated for
    arbitrary `X` and `G`, so that it is only about where the block sits. -/
theorem write_back_of_entries (t : Fin cfg0.N) (X : Vec Ideal S5000x256 .f32) (G : FVec Ideal S50000x256 .f32)
    (h : ∀ (j : S5000x256.Idx) (i : S50000x256.Idx), (i 0).val = win0_3.index t (0 : Fin 2) * 5000 + (j 0).val →
      (i 1).val = (j 1).val → X j = G i) :
    (cfg0.win 3).cut (grid0.coords t) X = ((cfg0.win 3).blk t).view.read (Elt Ideal) G := by
  obtain ⟨-, -, -, -, -, -, -, e31⟩ := block_indices t
  funext j
  refine h ((cfg0.win 3).xinj (grid0.coords t) j) (((cfg0.win 3).blk t).view.emb j) ?_ ?_
  · show win0_3.index t (0 : Fin 2) * 5000 + 1 * (j 0).val = win0_3.index t (0 : Fin 2) * 5000 + (j 0).val; omega
  · show win0_3.index t (1 : Fin 2) * 256 + 1 * (j 1).val = (j 1).val; omega

end Cert.KernelIdeal.Whole

end
-- ==== Proof.Payload.lean ====
/-
  The kernel body's one stored value, entry by entry.

  At a grid point the body loads a block `x` of 5000 rows of the aggregate, the whole transposed weight matrix `wt`
  ([256, 256], row k holding the weights of INPUT feature k) and the bias as one row `b` ([1, 256]); it narrows `x` and
  `wt` to bf16 (the identity on extended reals), multiplies them into a zero accumulator, and adds the bias row broadcast
  over the 5000 rows. Entry (r, o) of what it stores is therefore

      Σ_k x[r, k] · wt[k, o]  +  b[0, o].
-/
import proofs.«123049_j74861279969816_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen
open Idealize.ShloMosaic Idealize.ShloMosaic.TcCoe Idealize.ShloMosaic.ValueIdx

/-! ## The matrix product's operand indices: output (r, o), position k ↦ left (r, k), right (k, o) -/

theorem lhs_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem lhs_1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
theorem rhs_0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
theorem rhs_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The product into a zero accumulator, at (r, o): the sum over the 256 input features. -/
theorem matmul_at (x : FVec Ideal S5000x256 .bf16) (wt : FVec Ideal S256x256 .bf16) (r : Fin 5000) (o : Fin 256) :
    matmul dot_S5000x256_S256x256_S5000x256_1_0_0_1_n_n none x wt (constant S5000x256 .f32 0x00000000#32) (ix2 r o)
      = ∑ k : Fin 256, x (ix2 r k) * wt (ix2 k o) := by
  show FloatOps.matmul dot_S5000x256_S256x256_S5000x256_1_0_0_1_n_n none x wt (constant S5000x256 .f32 0x00000000#32) (ix2 r o) = _
  rw [Ideal.matmul_constant_zero_apply, ← Equiv.sum_comp (ValueIdx.contrEquiv1 dot_S5000x256_S256x256_S5000x256_1_0_0_1_n_n 256 rfl rfl).symm]
  refine Finset.sum_congr rfl fun k _ => ?_
  have hk := ValueIdx.contrEquiv1_symm_val dot_S5000x256_S256x256_S5000x256_1_0_0_1_n_n 256 rfl rfl k
  have el : dot_S5000x256_S256x256_S5000x256_1_0_0_1_n_n.lhsIdx (ix2 r o) ((ValueIdx.contrEquiv1 dot_S5000x256_S256x256_S5000x256_1_0_0_1_n_n 256 rfl rfl).symm k) = ix2 r k := funext fun a => Fin.ext (by
    match a with
    | ⟨0, _⟩ => exact lhs_0 _ _
    | ⟨1, _⟩ => exact (lhs_1 _ _).trans hk)
  have er : dot_S5000x256_S256x256_S5000x256_1_0_0_1_n_n.rhsIdx (ix2 r o) ((ValueIdx.contrEquiv1 dot_S5000x256_S256x256_S5000x256_1_0_0_1_n_n 256 rfl rfl).symm k) = ix2 k o := funext fun a => Fin.ext (by
    match a with
    | ⟨0, _⟩ => exact (rhs_0 _ _).trans hk
    | ⟨1, _⟩ => exact rhs_1 _ _)
  rw [el, er]

/-- The stored value at (r, o). -/
theorem pay_at (x : Vec Ideal S5000x256 .f32) (wt : Vec Ideal S256x256 .f32) (b : Vec Ideal S1x256 .f32) (r : Fin 5000) (o : Fin 256) :
    k0_pay1 (F := Ideal) x wt b (ix2 r o) = (∑ k : Fin 256, x (ix2 r k) * wt (ix2 k o)) + b (ix2 (0 : Fin 1) o) := by
  unfold k0_pay1
  rw [shapeCast_self, shapeCast_self, shapeCast_self]
  refine (ValueIdx.addf_apply _ _ _).trans ?_
  refine congrArg₂ (· + ·) ((matmul_at _ _ r o).trans ?_) (ValueIdx.broadcastTo_1b_ab_apply b broadcasts_S1x256_S5000x256 r o)
  rfl

end Cert.KernelIdeal.Body

end
-- ==== Proof.Affine.lean ====
/-
  The dense affine map both programs apply to the aggregated node features.

  For an array `a` of shape [50000, 256] (one row per node), a weight matrix `w` of shape [256, 256] stored with one
  ROW per OUTPUT feature, and a bias `b` of shape [256], the entry at node `n` and output feature `o` is

      Σ_k a[n, k] · w[o, k]  +  b[o]

  on the extended reals: `nn.Linear`'s  a · wᵀ + b.  The kernel reaches it through a transposed copy of `w` and a
  matrix product of row blocks; the reference through one contraction of the second axes. Neither the sum's order nor
  the products are rearranged, so no law of the extended reals beyond the definitions is needed.
-/
import Idealize.ShloMosaic.PureOps.Ideal
import Idealize.ShloMosaic.Lib.ValueIdx

noncomputable section

namespace Cert.Affine

open Idealize.ShloMosaic Idealize.ShloMosaic.ValueIdx

/-- `a · wᵀ + b`, entry by entry: row `n` of `a` against row `o` of `w`, plus `b` at `o`. -/
def affine (a : FVec Ideal ⟨2, ![50000, 256]⟩ .f32) (w : FVec Ideal ⟨2, ![256, 256]⟩ .f32) (b : FVec Ideal ⟨1, ![256]⟩ .f32) :
    FVec Ideal ⟨2, ![50000, 256]⟩ .f32 :=
  fun i => (∑ k : Fin 256, a (ix2 (i 0) k) * w (ix2 (i 1) k)) + b (ix1 (i 1))

/-- The same entry with the node and the output feature named. -/
theorem affine_apply (a : FVec Ideal ⟨2, ![50000, 256]⟩ .f32) (w : FVec Ideal ⟨2, ![256, 256]⟩ .f32) (b : FVec Ideal ⟨1, ![256]⟩ .f32)
    (n : Fin 50000) (o : Fin 256) :
    affine a w b (ix2 n o) = (∑ k : Fin 256, a (ix2 n k) * w (ix2 o k)) + b (ix1 o) := rfl

end Cert.Affine

end
-- ==== Proof.BlockEntry.lean ====
/-
  One block entry of the kernel is one entry of the affine map.

  Grid point q (0 ≤ q ≤ 9) works on rows 5000·q … 5000·q + 4999 of the aggregate. If the block `x` it loads holds those
  rows of an array `A`, the matrix `wt` it loads is the transpose of `W`, and the row `b` it loads is `B` laid out as
  [1, 256], then entry (r, o) of what the body stores is entry (5000·q + r, o) of  A · Wᵀ + B:

      Σ_k x[r, k] · wt[k, o] + b[0, o]  =  Σ_k A[5000 q + r, k] · W[o, k] + B[o].
-/
import proofs.«123049_j74861279969816_1_alg».proof.Proof.Payload
import proofs.«123049_j74861279969816_1_alg».proof.Proof.Affine

noncomputable section

namespace Cert.KernelIdeal.Body

open Cert.KernelIdeal Cert.KernelIdeal.Gen
open Idealize.ShloMosaic Idealize.ShloMosaic.TcCoe Idealize.ShloMosaic.ValueIdx

theorem block_entry (A : FVec Ideal S50000x256 .f32) (W : FVec Ideal S256x256 .f32) (B : FVec Ideal S256 .f32)
    (x : Vec Ideal S5000x256 .f32) (wt : Vec Ideal S256x256 .f32) (b : Vec Ideal S1x256 .f32)
    (q : Nat) (hq : q ≤ 9)
    (hx : ∀ (r : Fin 5000) (k : Fin 256), x (ix2 r k) = A (ix2 (⟨q * 5000 + r.val, by have := r.isLt; omega⟩ : Fin 50000) k))
    (hw : ∀ k o : Fin 256, wt (ix2 k o) = W (ix2 o k))
    (hb : ∀ o : Fin 256, b (ix2 (0 : Fin 1) o) = B (ix1 o))
    (j : S5000x256.Idx) (i : S50000x256.Idx) (hi0 : (i 0).val = q * 5000 + (j 0).val) (hi1 : (i 1).val = (j 1).val) :
    k0_pay1 (F := Ideal) x wt b j = Cert.Affine.affine A W B i := by
  obtain ⟨r, o, rfl⟩ : ∃ (r : Fin 5000) (o : Fin 256), j = ix2 r o := ⟨j 0, j 1, eq_ix2 j⟩
  have hi : i = ix2 (⟨q * 5000 + r.val, by have := r.isLt; omega⟩ : Fin 50000) o := funext fun a => Fin.ext (by
    match a with
    | ⟨0, _⟩ => exact hi0
    | ⟨1, _⟩ => exact hi1)
  rw [hi, pay_at, Cert.Affine.affine_apply]
  refine congrArg₂ (· + ·) (Finset.sum_congr rfl fun k _ => ?_) (hb o)
  rw [hx r k, hw k o]

end Cert.KernelIdeal.Body

end
-- ==== Proof.Entries.lean ====
/-
  What a grid point computes, entry by entry.

  At point t the three loaded blocks are rows 5000·q … 5000·q + 4999 of the aggregate (q the point's row block), the
  whole transposed weights and the whole bias row. With the block-entry lemma, entry (r, o) of what the body stores is
  entry (5000·q + r, o) of  agg · Wᵀ + b.
-/
import proofs.«123049_j74861279969816_1_alg».proof.Proof.HostArrays
import proofs.«123049_j74861279969816_1_alg».proof.Proof.RowBlocks
import proofs.«123049_j74861279969816_1_alg».proof.Proof.BlockEntry

set_option Elab.async false

noncomputable section

namespace Cert.KernelIdeal.Whole

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- At point `t`, entry (r, o) of what the body stores is entry (5000·q + r, o) of the affine map of the aggregate,
    the weights and the bias, q the point's row block index. -/
theorem entries (c : Dev nD) (t : Fin cfg0.N) (j : S5000x256.Idx) (i : S50000x256.Idx)
    (h0 : (i 0).val = win0_3.index t (0 : Fin 2) * 5000 + (j 0).val) (h1 : (i 1).val = (j 1).val) :
    k0_pay1 (F := Ideal) (iblk m c 0 t) (iblk m c 1 t) (iblk m c 2 t) j
      = Cert.Affine.affine (V m c main_v12) (m ((c : Thread nD τ).loc main_arg4)) (m ((c : Thread nD τ).loc main_arg5)) i := by
  obtain ⟨-, -, -, -, -, -, e3le, -⟩ := block_indices t
  refine Cert.KernelIdeal.Body.block_entry (V m c main_v12) (m ((c : Thread nD τ).loc main_arg4)) (m ((c : Thread nD τ).loc main_arg5)) (iblk m c 0 t) (iblk m c 1 t) (iblk m c 2 t)
    (win0_3.index t (0 : Fin 2)) e3le ?_ ?_ ?_ j i h0 h1
  · intro r k
    exact read_rows t (V m c main_v12) r k _ rfl
  · intro k o
    exact (read_weights t (V m c main_v13) k o).trans (wt_at m c k o)
  · intro o
    exact (read_bias_row t (V m c main_v14) o).trans (brow_at m c o)

end Cert.KernelIdeal.Whole

end
-- ==== Proof.KernelArray.lean ====
/-
  From the blocks to the whole result array.

  Each of the ten grid points loads 5000 consecutive rows of the aggregate together with the whole transposed weights
  and the bias row, and writes back the 5000 matching rows of the result. By the block-entry lemma a point writes exactly
  its rows of  agg · Wᵀ + b;  the ten row blocks tile the 50000 rows, so after the run the result array IS that affine
  map of the aggregate, and the aggregate is the named function of the arguments.
-/
import proofs.«123049_j74861279969816_1_alg».proof.Proof.Entries

set_option Elab.async false

noncomputable section

namespace Cert.KernelIdeal.Whole

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## What a point writes back -/

/-- Point `t` writes back block `t` of the affine map of the aggregate, the weights and the bias. -/
theorem flushed_eq (c : Dev nD) (t : Fin cfg0.N) :
    (dats m 0 c).flushed 3 t
      = ((cfg0.win 3).blk t).view.read (Elt Ideal) (Cert.Affine.affine (V m c main_v12) (m ((c : Thread nD τ).loc main_arg4)) (m ((c : Thread nD τ).loc main_arg5))) := by
  rw [Value.flushed3]
  unfold out0_3
  rw [View.canon_unit_zero hz]
  simp only [View.ld_unit_zero (S := S5000x256) hz, View.ld_unit_zero (S := S256x256) hz, View.ld_unit_zero (S := S1x256) hz]
  exact write_back_of_entries t (k0_pay1 (F := Ideal) (iblk m c 0 t) (iblk m c 1 t) (iblk m c 2 t))
    (Cert.Affine.affine (V m c main_v12) (m ((c : Thread nD τ).loc main_arg4)) (m ((c : Thread nD τ).loc main_arg5))) (entries m c t)

/-! ## The array after the run, and the run -/

/-- After the last point the result array is the affine map of the aggregate the region found. -/
theorem final (c : Dev nD) :
    (dats m 0 c).arrAt 3 cfg0.N = Cert.Affine.affine (V m c main_v12) (m ((c : Thread nD τ).loc main_arg4)) (m ((c : Thread nD τ).loc main_arg5)) :=
  (dats m 0 c).arrAt_eq_of_cover 3 _ (fun t _ => flushed_eq m c t) cover

/-- Every weakly fair execution of the idealized kernel program ends with the result array at the affine map of the
    aggregate of the arguments, the arguments unchanged. -/
theorem run : θ_run defs (onTc (τ := τ) (main (F := Ideal))) ⟨m, fun _ => 0, ρ⟩ fun r => ∀ c : Dev nD,
      r.2.mem ((c : Thread nD τ).loc main_v15)
        = Cert.Affine.affine (aggregate (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1.trans (final m c)).trans (by rw [agg_eq]), (h c).2⟩)
    (Value.run_blocks m ρ)

end Cert.KernelIdeal.Whole

end
-- ==== Proof.RefAffine.lean ====
/-
  The reference's result is the affine map of its own aggregate.

  After the aggregate (the scatter-add of the scaled gathered rows) the reference contracts the aggregate's second axis
  with the SECOND axis of the weights — entry (n, o) is  Σ_k agg[n, k] · W[o, k]  — and adds the bias broadcast along the
  nodes, first to one row [1, 256] and then to every row: entry (n, o) of that broadcast is  b[o].  Read at an index,
  this is `Cert.Affine.affine` of the aggregate, the weights and the bias; the aggregate itself is never opened.
-/
import proofs.«123049_j74861279969816_1_alg».proof.Proof.Gen.ReferenceIdeal.Read
import proofs.«123049_j74861279969816_1_alg».proof.Proof.Affine

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The contraction's left operand index at output (n, o) and position k is (n, k). -/
theorem lidx_eq (i : S50000x256.Idx) (k : Fin 256) : lidx_main_v13 i k = ix2 (i 0) k :=
  funext fun a => by match a with | ⟨0, _⟩ => rfl | ⟨1, _⟩ => rfl

/-- Its right operand index is (o, k): the weights are read along their second axis. -/
theorem ridx_eq (i : S50000x256.Idx) (k : Fin 256) : ridx_main_v13 i k = ix2 (i 1) k :=
  funext fun a => by match a with | ⟨0, _⟩ => rfl | ⟨1, _⟩ => rfl

/-- The bias, broadcast to a row and then to every row, is read at the output feature. -/
theorem bidx_eq (i : S50000x256.Idx) : idx_main_v14 (idx_main_v15 i) = ix1 (i 1) :=
  funext fun a => by match a with | ⟨0, _⟩ => rfl

/-- The reference's last stage is the affine map of its aggregate stage, the weights and the bias. -/
theorem result_eq (x0 : (⟨S50000x256, .f32⟩ : BufTy).Contents (Elt Ideal)) (x1 x2 : (⟨S800000, .i32⟩ : BufTy).Contents (Elt Ideal))
    (x3 : (⟨S800000, .f32⟩ : BufTy).Contents (Elt Ideal)) (x4 : (⟨S256x256, .f32⟩ : BufTy).Contents (Elt Ideal))
    (x5 : (⟨S256, .f32⟩ : BufTy).Contents (Elt Ideal)) :
    val_main_v16 (F := Ideal) x0 x1 x2 x3 x4 x5 = Cert.Affine.affine (val_main_v12 (F := Ideal) x0 x1 x2 x3) x4 x5 := by
  funext i
  rw [val_main_v16_apply, val_main_v13_apply, val_main_v15_apply, val_main_v14_apply]
  generalize val_main_v12 (F := Ideal) x0 x1 x2 x3 = agg
  unfold Cert.Affine.affine
  show (∑ k : Fin 256, agg (lidx_main_v13 i k) * x4 (ridx_main_v13 i k)) + x5 (idx_main_v14 (idx_main_v15 i)) = _
  refine congrArg₂ (· + ·) (Finset.sum_congr rfl fun k _ => ?_) (congrArg x5 (bidx_eq i))
  exact congrArg₂ (· * ·) (congrArg agg (lidx_eq i k)) (congrArg x4 (ridx_eq i k))

end Cert.ReferenceIdeal.RefValue

end
-- ==== Proof.lean ====
/-
  A graph-convolution layer: a sparse aggregation followed by a dense linear map.

  Both programs first form the aggregate  agg[i] = Σ_{e : row(e) = i} val(e) · x[col(e)]  by the same host operations, in
  the same order: negative column indices wrapped, the feature rows gathered, each scaled by its edge value, the scaled
  rows added into a zero array at their edge rows. That chain is one function of the four arguments it reads and is
  never opened here; it is the same function in both programs because the two printed chains are the same term.

  After the aggregate the programs differ only in layout. The kernel transposes the weights on the host, lays the bias
  out as one row, and in ten grid points multiplies 5000 rows of the aggregate at a time by the transposed weights (the
  operands narrowed to bf16, which on extended reals changes nothing, into a zero accumulator) and adds the bias row
  broadcast over the rows. The reference contracts the aggregate's second axis with the weights' second axis in one step
  and adds the bias broadcast over all rows. Entry (n, o) of either result is

      Σ_k agg[n, k] · W[o, k]  +  b[o],

  the same sum of the same products in the same order, so no property of the inputs is used: the precondition is
  never opened. The kernel's result array is read from the ten row blocks its points write back, which tile the 50000
  rows; the reference's result is read one operation at a time.

  The three frames are the generated frame runs (the reference's is its run with the result dropped), and the
  idealization rewrote nothing, so its conjunct is trivial.
-/
import proofs.«123049_j74861279969816_1_alg».proof.Defs
import proofs.«123049_j74861279969816_1_alg».proof.Proof.Gen.Kernel
import proofs.«123049_j74861279969816_1_alg».proof.Proof.Gen.Kernel.Skeleton
import proofs.«123049_j74861279969816_1_alg».proof.Proof.Gen.Kernel.Launch
import proofs.«123049_j74861279969816_1_alg».proof.Proof.Gen.Kernel.Points
import proofs.«123049_j74861279969816_1_alg».proof.Proof.Gen.Kernel.Frame
import proofs.«123049_j74861279969816_1_alg».proof.Proof.Gen.KernelIdeal
import proofs.«123049_j74861279969816_1_alg».proof.Proof.Gen.KernelIdeal.Skeleton
import proofs.«123049_j74861279969816_1_alg».proof.Proof.Gen.KernelIdeal.Launch
import proofs.«123049_j74861279969816_1_alg».proof.Proof.Gen.KernelIdeal.Points
import proofs.«123049_j74861279969816_1_alg».proof.Proof.Gen.KernelIdeal.Frame
import proofs.«123049_j74861279969816_1_alg».proof.Proof.Gen.ReferenceIdeal
import proofs.«123049_j74861279969816_1_alg».proof.Proof.Gen.Pre_finite_inputs
import proofs.«123049_j74861279969816_1_alg».proof.Proof.Gen.KernelIdeal.Value
import proofs.«123049_j74861279969816_1_alg».proof.Proof.Gen.ReferenceIdeal.Run
import proofs.«123049_j74861279969816_1_alg».proof.Proof.Gen.ReferenceIdeal.Read
import proofs.«123049_j74861279969816_1_alg».proof.Proof.KernelArray
import proofs.«123049_j74861279969816_1_alg».proof.Proof.RefAffine
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The idealized reference runs and leaves its arguments as they were: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The kernel program's aggregate and the reference's aggregate stage are one function of the node features, the edge
    rows and columns and the edge values: the two chains of host operations are the same term. -/
theorem aggregate_eq (x : FVec Ideal Cert.KernelIdeal.S50000x256 .f32)
    (row col : (⟨Cert.KernelIdeal.S800000, .i32⟩ : BufTy).Contents (Elt Ideal)) (val : FVec Ideal Cert.KernelIdeal.S800000 .f32) :
    Cert.ReferenceIdeal.Read.val_main_v12 (F := Ideal) x row col val = Cert.KernelIdeal.Whole.aggregate x row col val := rfl

/-- From memories that agree on the arguments both idealized programs end with the result array at the affine map
    agg · Wᵀ + b  of the same aggregate, the same weights and the same bias. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq,
    (hagree c).1, (hagree c).2.1, (hagree c).2.2.1, (hagree c).2.2.2.1, (hagree c).2.2.2.2.1, (hagree c).2.2.2.2.2, aggregate_eq]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
